-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : IVec S4096x4096 32) (main_arg1 : IVec S4096x4096 32) : IVec S_ 1 :=
  let main_c : IVec S_ 32 := constantI S_ 32 0#32
  let main_v0 : IVec S4096x4096 32 := broadcastInDim S4096x4096 ![] bcast_S_S4096x4096 main_c
  let main_v1 : IVec S4096x4096 1 := cmpi .sge main_arg0 main_v0
  let main_c_0 : IVec S_ 32 := constantI S_ 32 64#32
  let main_v2 : IVec S4096x4096 32 := broadcastInDim S4096x4096 ![] bcast_S_S4096x4096 main_c_0
  let main_v3 : IVec S4096x4096 1 := cmpi .slt main_arg0 main_v2
  let main_v4 : IVec S4096x4096 1 := andi main_v1 main_v3
  let main_c_1 : IVec S_ 32 := constantI S_ 32 0#32
  let main_v5 : IVec S4096x4096 32 := broadcastInDim S4096x4096 ![] bcast_S_S4096x4096 main_c_1
  let main_v6 : IVec S4096x4096 1 := cmpi .sge main_arg1 main_v5
  let main_c_2 : IVec S_ 32 := constantI S_ 32 64#32
  let main_v7 : IVec S4096x4096 32 := broadcastInDim S4096x4096 ![] bcast_S_S4096x4096 main_c_2
  let main_v8 : IVec S4096x4096 1 := cmpi .slt main_arg1 main_v7
  let main_v9 : IVec S4096x4096 1 := andi main_v6 main_v8
  let main_v10 : IVec S4096x4096 1 := andi main_v4 main_v9
  let main_c_3 : IVec S_ 1 := constantI S_ 1 1#1
  let main_v11 : IVec S_ 1 := (fun x v => Host.reduce IntOp.andi x v reducesTo_S4096x4096_S_d0_1 h_S_) main_v10 main_c_3
  main_v11
-- ==== Kernel.lean ====
abbrev S4096x4096 : Shape := ⟨2, ![4096, 4096]⟩
abbrev S64x64 : Shape := ⟨2, ![64, 64]⟩
abbrev S256x4096 : Shape := ⟨2, ![256, 4096]⟩
abbrev S8x4096 : Shape := ⟨2, ![8, 4096]⟩
abbrev S8x4096x64 : Shape := ⟨3, ![8, 4096, 64]⟩
abbrev S8x4096x1 : Shape := ⟨3, ![8, 4096, 1]⟩
abbrev S8x64x64 : Shape := ⟨3, ![8, 64, 64]⟩
abbrev S_ : Shape := ⟨0, ![]⟩
abbrev S64 : Shape := ⟨1, ![64]⟩
abbrev S63x63 : Shape := ⟨2, ![63, 63]⟩
abbrev S63 : Shape := ⟨1, ![63]⟩
abbrev S63x1 : Shape := ⟨2, ![63, 1]⟩
abbrev S1x63 : Shape := ⟨2, ![1, 63]⟩

abbrev nBuf : Space → Nat
  | .hbm => 65
  | .vmem => 5
  | .smem => 0
  | _ => 0

abbrev bufTy : (tb : Table) → Fin (tcTables nBuf tb) → BufTy
  | .hbm, ⟨0, _⟩ => ⟨S4096x4096, .i32⟩
  | .hbm, ⟨1, _⟩ => ⟨S4096x4096, .i32⟩
  | .hbm, ⟨2, _⟩ => ⟨S64x64, .f32⟩
  | .hbm, ⟨3, _⟩ => ⟨S_, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S63x63, .f32⟩
  | .hbm, ⟨8, _⟩ => ⟨S63, .f32⟩
  | .hbm, ⟨9, _⟩ => ⟨S63, .f32⟩
  | .hbm, ⟨10, _⟩ => ⟨S63x1, .f32⟩
  | .hbm, ⟨11, _⟩ => ⟨S1x63, .f32⟩
  | .hbm, ⟨12, _⟩ => ⟨S63x63, .f32⟩
  | .hbm, ⟨13, _⟩ => ⟨S63x63, .f32⟩
  | .hbm, ⟨14, _⟩ => ⟨S63x63, .f32⟩
  | .hbm, ⟨15, _⟩ => ⟨S63x63, .f32⟩
  | .hbm, ⟨16, _⟩ => ⟨S_, .f32⟩
  | .hbm, ⟨17, _⟩ => ⟨S63x63, .f32⟩
  | .hbm, ⟨18, _⟩ => ⟨S63x63, .i1⟩
  | .hbm, ⟨19, _⟩ => ⟨S_, .f32⟩
  | .hbm, ⟨20, _⟩ => ⟨S63x63, .f32⟩
  | .hbm, ⟨21, _⟩ => ⟨S63x63, .f32⟩
  | .hbm, ⟨22, _⟩ => ⟨S63x63, .f32⟩
  | .hbm, ⟨23, _⟩ => ⟨S_, .f32⟩
  | .hbm, ⟨24, _⟩ => ⟨S_, .f32⟩
  | .hbm, ⟨25, _⟩ => ⟨S63x63, .f32⟩
  | .hbm, ⟨26, _⟩ => ⟨S63x63, .f32⟩
  | .hbm, ⟨27, _⟩ => ⟨S_, .f32⟩
  | .hbm, ⟨28, _⟩ => ⟨S63, .f32⟩
  | .hbm, ⟨29, _⟩ => ⟨S63, .i1⟩
  | .hbm, ⟨30, _⟩ => ⟨S63, .f32⟩
  | .hbm, ⟨31, _⟩ => ⟨S_, .f32⟩
  | .hbm, ⟨32, _⟩ => ⟨S63, .f32⟩
  | .hbm, ⟨33, _⟩ => ⟨S63, .i1⟩
  | .hbm, ⟨34, _⟩ => ⟨S63, .f32⟩
  | .hbm, ⟨35, _⟩ => ⟨S_, .f32⟩
  | .hbm, ⟨36, _⟩ => ⟨S63, .f32⟩
  | .hbm, ⟨37, _⟩ => ⟨S_, .f32⟩
  | .hbm, ⟨38, _⟩ => ⟨S63, .f32⟩
  | .hbm, ⟨39, _⟩ => ⟨S_, .f32⟩
  | .hbm, ⟨40, _⟩ => ⟨S63, .f32⟩
  | .hbm, ⟨41, _⟩ => ⟨S63, .f32⟩
  | .hbm, ⟨42, _⟩ => ⟨S63, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S63, .f32⟩
  | .hbm, ⟨47, _⟩ => ⟨S63, .f32⟩
  | .hbm, ⟨48, _⟩ => ⟨S63, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S256x4096, .i32⟩
  | .local _ .vmem, ⟨1, _⟩ => ⟨S256x4096, .i32⟩
  | .local _ .vmem, ⟨2, _⟩ => ⟨S256x4096, .i32⟩
  | .local _ .vmem, ⟨3, _⟩ => ⟨S256x4096, .i32⟩
  | .local _ .vmem, ⟨4, _⟩ => ⟨S64x64, .f32⟩
  | _, _ => ⟨S4096x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_cst_13 : Ref sig .tc := ⟨.hbm, 54, rfl⟩
abbrev main_v36 : Ref sig .tc := ⟨.hbm, 55, rfl⟩
abbrev main_v37 : Ref sig .tc := ⟨.hbm, 56, rfl⟩
abbrev main_cst_14 : Ref sig .tc := ⟨.hbm, 57, rfl⟩
abbrev main_v38 : Ref sig .tc := ⟨.hbm, 58, rfl⟩
abbrev main_cst_15 : Ref sig .tc := ⟨.hbm, 59, rfl⟩
abbrev main_v39 : Ref sig .tc := ⟨.hbm, 60, rfl⟩
abbrev main_v40 : Ref sig .tc := ⟨.hbm, 61, rfl⟩
abbrev main_cst_16 : Ref sig .tc := ⟨.hbm, 62, rfl⟩
abbrev main_call1_v0 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg4 : BitVec 32 := Scf.iv c0_i32_1 c1_i32 k0_t1
  let c8_i32 : BitVec 32 := 8#32
  let v10 : BitVec 32 := Scalar.muli arg4 c8_i32
  v10
def k0_off1 (k0_t1 : Fin k0_t1_loop.trips) : Fin 2 → Nat :=
  let c0_i32_1 : BitVec 32 := 0#32
  let c1_i32 : BitVec 32 := 1#32
  let arg4 : BitVec 32 := Scf.iv c0_i32_1 c1_i32 k0_t1
  let c8_i32 : BitVec 32 := 8#32
  let v10 : BitVec 32 := Scalar.muli arg4 c8_i32
  let v11 : BitVec 32 := v10
  let v12 : Index := Scalar.indexCast v11
  let c0_6 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S64x64_S64x64_0_0 : ∀ a, (![0, 0] : Fin 2 → Nat) a + S64x64.size a ≤ S64x64.size a
  h_S64x64 : 0 < S64x64.numel
  h_S8x4096 : 0 < S8x4096.numel
  iota_S8x4096x64_d2_w32 : S8x4096x64.Iotas .tc 32 [2]
  shapeCasts_S8x4096_S8x4096x1 : S8x4096.ShapeCasts S8x4096x1
  broadcasts_S8x4096x1_S8x4096x64 : S8x4096x1.Broadcasts S8x4096x64
  natLt_1_32 : 1 < 32
  bitsLt_bf16_f32 : FTy.bits .bf16 < FTy.bits .f32
  reduces_S8x64x64_S64x64 : S8x64x64.Reduces [0] S64x64
  shapeCasts_S64x64_S64x64 : S64x64.ShapeCasts S64x64
  reducesTo_S64x64_S64_d1 : S64x64.ReducesTo [1] S64
  h_S_ : 0 < S_.numel
  reducesTo_S64x64_S64_d0 : S64x64.ReducesTo [0] S64
  slices_S64x64_S63x63_1_1 : S64x64.Slices ![1, 1] S63x63
  slices_S64_S63_1 : S64.Slices ![1] S63
  bcast_S63_S63x1_0 : S63.BroadcastsInDim S63x1 (![0] : Fin 1 → Fin S63x1.rank)
  bcast_S63_S1x63_1 : S63.BroadcastsInDim S1x63 (![1] : Fin 1 → Fin S1x63.rank)
  bcast_S63x1_S63x63_0_1 : S63x1.BroadcastsInDim S63x63 (![0, 1] : Fin 2 → Fin S63x63.rank)
  bcast_S1x63_S63x63_0_1 : S1x63.BroadcastsInDim S63x63 (![0, 1] : Fin 2 → Fin S63x63.rank)
  bcast_S_S63x63 : S_.BroadcastsInDim S63x63 (![] : Fin 0 → Fin S63x63.rank)
  bcast_S_S63 : S_.BroadcastsInDim S63 (![] : Fin 0 → Fin S63.rank)
  reducesTo_S63x63_S63_d1 : S63x63.ReducesTo [1] S63
  reducesTo_S63x63_S63_d0 : S63x63.ReducesTo [0] S63
  reducesTo_S63_S_d0 : S63.ReducesTo [0] S_
  dot_S8x4096x64_S8x4096x64_S8x64x64_1_1_2_2_0_0_wf : DotDims.WF S8x4096x64 S8x4096x64 S8x64x64 [1] [1] [2] [2] [0] [0]
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x4096.size a ≤ S256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)

variable [Facts₀]

def dot_S8x4096x64_S8x4096x64_S8x64x64_1_1_2_2_0_0 : DotDims S8x4096x64 S8x4096x64 S8x64x64 where
  lhsContracting := [1]
  rhsContracting := [1]
  lhsNonContracting := [2]
  rhsNonContracting := [2]
  lhsBatch := [0]
  rhsBatch := [0]
  wf := dot_S8x4096x64_S8x4096x64_S8x64x64_1_1_2_2_0_0_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S16777216 : Shape := ⟨1, ![16777216]⟩
abbrev S4096 : Shape := ⟨1, ![4096]⟩
abbrev S16777216x1 : Shape := ⟨2, ![16777216, 1]⟩
abbrev S64x64 : Shape := ⟨2, ![64, 64]⟩
abbrev S64 : Shape := ⟨1, ![64]⟩
abbrev S63x63 : Shape := ⟨2, ![63, 63]⟩
abbrev S63 : Shape := ⟨1, ![63]⟩
abbrev S63x1 : Shape := ⟨2, ![63, 1]⟩
abbrev S1x63 : Shape := ⟨2, ![1, 63]⟩

abbrev nBuf : Space → Nat
  | .hbm => 76
  | .vmem => 0
  | .smem => 0
  | _ => 0

abbrev bufTy : (tb : Table) → Fin (tcTables nBuf tb) → BufTy
  | .hbm, ⟨0, _⟩ => ⟨S4096x4096, .i32⟩
  | .hbm, ⟨1, _⟩ => ⟨S4096x4096, .i32⟩
  | .hbm, ⟨2, _⟩ => ⟨S_, .i32⟩
  | .hbm, ⟨3, _⟩ => ⟨S4096x4096, .i32⟩
  | .hbm, ⟨4, _⟩ => ⟨S4096x4096, .i32⟩
  | .hbm, ⟨5, _⟩ => ⟨S4096x4096, .i32⟩
  | .hbm, ⟨6, _⟩ => ⟨S16777216, .i32⟩
  | .hbm, ⟨7, _⟩ => ⟨S_, .f32⟩
  | .hbm, ⟨8, _⟩ => ⟨S16777216, .f32⟩
  | .hbm, ⟨9, _⟩ => ⟨S_, .f32⟩
  | .hbm, ⟨10, _⟩ => ⟨S4096, .f32⟩
  | .hbm, ⟨11, _⟩ => ⟨S16777216x1, .i32⟩
  | .hbm, ⟨12, _⟩ => ⟨S4096, .f32⟩
  | .hbm, ⟨13, _⟩ => ⟨S64x64, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S63x63, .f32⟩
  | .hbm, ⟨19, _⟩ => ⟨S63, .f32⟩
  | .hbm, ⟨20, _⟩ => ⟨S63, .f32⟩
  | .hbm, ⟨21, _⟩ => ⟨S63x1, .f32⟩
  | .hbm, ⟨22, _⟩ => ⟨S1x63, .f32⟩
  | .hbm, ⟨23, _⟩ => ⟨S63x63, .f32⟩
  | .hbm, ⟨24, _⟩ => ⟨S63x63, .f32⟩
  | .hbm, ⟨25, _⟩ => ⟨S63x63, .f32⟩
  | .hbm, ⟨26, _⟩ => ⟨S63x63, .f32⟩
  | .hbm, ⟨27, _⟩ => ⟨S_, .f32⟩
  | .hbm, ⟨28, _⟩ => ⟨S63x63, .f32⟩
  | .hbm, ⟨29, _⟩ => ⟨S63x63, .i1⟩
  | .hbm, ⟨30, _⟩ => ⟨S_, .f32⟩
  | .hbm, ⟨31, _⟩ => ⟨S63x63, .f32⟩
  | .hbm, ⟨32, _⟩ => ⟨S63x63, .f32⟩
  | .hbm, ⟨33, _⟩ => ⟨S63x63, .f32⟩
  | .hbm, ⟨34, _⟩ => ⟨S_, .f32⟩
  | .hbm, ⟨35, _⟩ => ⟨S_, .f32⟩
  | .hbm, ⟨36, _⟩ => ⟨S63x63, .f32⟩
  | .hbm, ⟨37, _⟩ => ⟨S63x63, .f32⟩
  | .hbm, ⟨38, _⟩ => ⟨S_, .f32⟩
  | .hbm, ⟨39, _⟩ => ⟨S63, .f32⟩
  | .hbm, ⟨40, _⟩ => ⟨S63, .i1⟩
  | .hbm, ⟨41, _⟩ => ⟨S63, .f32⟩
  | .hbm, ⟨42, _⟩ => ⟨S_, .f32⟩
  | .hbm, ⟨43, _⟩ => ⟨S63, .f32⟩
  | .hbm, ⟨44, _⟩ => ⟨S63, .i1⟩
  | .hbm, ⟨45, _⟩ => ⟨S63, .f32⟩
  | .hbm, ⟨46, _⟩ => ⟨S_, .f32⟩
  | .hbm, ⟨47, _⟩ => ⟨S63, .f32⟩
  | .hbm, ⟨48, _⟩ => ⟨S_, .f32⟩
  | .hbm, ⟨49, _⟩ => ⟨S63, .f32⟩
  | .hbm, ⟨50, _⟩ => ⟨S_, .f32⟩
  | .hbm, ⟨51, _⟩ => ⟨S63, .f32⟩
  | .hbm, ⟨52, _⟩ => ⟨S63, .f32⟩
  | .hbm, ⟨53, _⟩ => ⟨S63, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S63, .f32⟩
  | .hbm, ⟨58, _⟩ => ⟨S63, .f32⟩
  | .hbm, ⟨59, _⟩ => ⟨S63, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S4096x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_cst_15 : Ref sig .tc := ⟨.hbm, 65, rfl⟩
abbrev main_v44 : Ref sig .tc := ⟨.hbm, 66, rfl⟩
abbrev main_v45 : Ref sig .tc := ⟨.hbm, 67, rfl⟩
abbrev main_cst_16 : Ref sig .tc := ⟨.hbm, 68, rfl⟩
abbrev main_v46 : Ref sig .tc := ⟨.hbm, 69, rfl⟩
abbrev main_cst_17 : Ref sig .tc := ⟨.hbm, 70, rfl⟩
abbrev main_v47 : Ref sig .tc := ⟨.hbm, 71, rfl⟩
abbrev main_v48 : Ref sig .tc := ⟨.hbm, 72, rfl⟩
abbrev main_cst_18 : Ref sig .tc := ⟨.hbm, 73, rfl⟩
abbrev main_call1_v0 : Ref sig .tc := ⟨.hbm, 74, rfl⟩
abbrev main_v49 : Ref sig .tc := ⟨.hbm, 75, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S16777216 : S4096x4096.ShapeCasts S16777216
  bcast_S_S16777216 : S_.BroadcastsInDim S16777216 (![] : Fin 0 → Fin S16777216.rank)
  bcast_S_S4096 : S_.BroadcastsInDim S4096 (![] : Fin 0 → Fin S4096.rank)
  bcast_S16777216_S16777216x1_0 : S16777216.BroadcastsInDim S16777216x1 (![0] : Fin 1 → Fin S16777216x1.rank)
  shapeCasts_S4096_S64x64 : S4096.ShapeCasts S64x64
  reducesTo_S64x64_S64_d1 : S64x64.ReducesTo [1] S64
  h_S_ : 0 < S_.numel
  reducesTo_S64x64_S64_d0 : S64x64.ReducesTo [0] S64
  slices_S64x64_S63x63_1_1 : S64x64.Slices ![1, 1] S63x63
  slices_S64_S63_1 : S64.Slices ![1] S63
  bcast_S63_S63x1_0 : S63.BroadcastsInDim S63x1 (![0] : Fin 1 → Fin S63x1.rank)
  bcast_S63_S1x63_1 : S63.BroadcastsInDim S1x63 (![1] : Fin 1 → Fin S1x63.rank)
  bcast_S63x1_S63x63_0_1 : S63x1.BroadcastsInDim S63x63 (![0, 1] : Fin 2 → Fin S63x63.rank)
  bcast_S1x63_S63x63_0_1 : S1x63.BroadcastsInDim S63x63 (![0, 1] : Fin 2 → Fin S63x63.rank)
  bcast_S_S63x63 : S_.BroadcastsInDim S63x63 (![] : Fin 0 → Fin S63x63.rank)
  bcast_S_S63 : S_.BroadcastsInDim S63 (![] : Fin 0 → Fin S63.rank)
  reducesTo_S63x63_S63_d1 : S63x63.ReducesTo [1] S63
  reducesTo_S63x63_S63_d0 : S63x63.ReducesTo [0] S63
  reducesTo_S63_S_d0 : S63.ReducesTo [0] S_
  scatter_S4096_S16777216x1_S16777216_n_0_0_1_wf : ScatterDims.WF S4096 S16777216x1 S16777216 [] [0] [0] 1

variable [Facts₀]

def scatter_S4096_S16777216x1_S16777216_n_0_0_1 : ScatterDims S4096 S16777216x1 S16777216 where
  updateWindowDims := []
  insertedWindowDims := [0]
  scatterDimsToOperandDims := [0]
  indexVectorDim := 1
  wf := scatter_S4096_S16777216x1_S16777216_n_0_0_1_wf

class Facts : Prop extends Facts₀ where

variable [Facts]
-- ==== Proof.RefStage.lean ====
/-
  The reference's histogram stage, named: the scatter-add of a one per pixel into 4096 bins at the joint
  label `64 · pred + true`, reshaped to 64 × 64. Everything the reference computes afterwards is a function of this
  array alone.
-/
import proofs.«425675_j55843164782815_2_alg».proof.ReferenceIdeal
import proofs.«425675_j55843164782815_2_alg».proof.Proof.Gen.ReferenceIdeal

noncomputable section

namespace Cert.RefHist

open Cert.ReferenceIdeal Cert.ReferenceIdeal.Gen Idealize.ShloMosaic

variable {F : FTy → Type} [FloatOps F]

/-- `inter_full` of the reference: bin (a, b) of the scatter-add, as the program spells it. -/
def refHist (x0 x1 : IVec S4096x4096 32) : FVec F S64x64 .f32 :=
  shapeCast S64x64 (Host.scatterAdd scatter_S4096_S16777216x1_S16777216_n_0_0_1 (broadcastInDim S4096 ![] bcast_S_S4096 (constant S_ .f32 0x00000000#32)) (broadcastInDim S16777216x1 ![0] bcast_S16777216_S16777216x1_0 (shapeCast S16777216 (addi (muli x0 (broadcastInDim S4096x4096 ![] bcast_S_S4096x4096 (constantI S_ 32 64#32))) x1) shapeCasts_S4096x4096_S16777216)) (broadcastInDim S16777216 ![] bcast_S_S16777216 (constant S_ .f32 0x3F800000#32))) shapeCasts_S4096_S64x64

end Cert.RefHist

end
-- ==== Proof.HistSpec.lean ====
/-
  The joint label histogram, as a specification over flat pixel numbers.

  Both programs count, for every pair of instance ids (a, b), the pixels of a 4096 × 4096 image whose
  predicted label is a and whose true label is b. Pixels are numbered row-major, n = 4096 · row + column,
  and a count over a stretch of consecutive pixel numbers is a sum over a range: the kernel adds such
  stretches up (a row, eight rows, a block of 256 rows, the whole image), the reference counts the whole
  image at once. The only law needed to join them is that a sum over a range splits at any point.
-/
import Idealize.ShloMosaic.PureOps.Ideal
import Idealize.ShloMosaic.Lib.ValueIdx
import Mathlib.Algebra.BigOperators.Intervals
import Mathlib.Algebra.BigOperators.Fin

noncomputable section

namespace Cert.Hist

open Idealize.ShloMosaic Idealize.ShloMosaic.ValueIdx

/-- The image's shape. -/
abbrev Img : Shape := ⟨2, ![4096, 4096]⟩
/-- The histogram's shape. -/
abbrev Bins : Shape := ⟨2, ![64, 64]⟩

/-- The index of the pixel numbered `n` (row-major; taken modulo the image so that it is total). -/
def pixIdx (n : ℕ) : Img.Idx :=
  ix2 (⟨n / 4096 % 4096, Nat.mod_lt _ (by decide)⟩ : Fin 4096) (⟨n % 4096, Nat.mod_lt _ (by decide)⟩ : Fin 4096)

/-- One where the pair of labels (p, t) is the pair of ids (a, b), zero elsewhere. -/
def hitv (p t : BitVec 32) (a b : ℕ) : EReal :=
  if p = BitVec.ofNat 32 a ∧ t = BitVec.ofNat 32 b then 1 else 0

/-- Pixel `n`'s contribution to bin (a, b). -/
def hit (x0 x1 : Img.Idx → BitVec 32) (a b n : ℕ) : EReal :=
  hitv (x0 (pixIdx n)) (x1 (pixIdx n)) a b

/-- The number of pixels among `lo, lo + 1, …, lo + len - 1` that fall in bin (a, b). -/
def count (x0 x1 : Img.Idx → BitVec 32) (a b lo len : ℕ) : EReal :=
  ∑ n ∈ Finset.range len, hit x0 x1 a b (lo + n)

/-- The joint histogram of the whole image. -/
def hist (x0 x1 : Img.Idx → BitVec 32) : Bins.Idx → EReal :=
  fun i => count x0 x1 (i 0).val (i 1).val 0 16777216

theorem count_zero (x0 x1 : Img.Idx → BitVec 32) (a b lo : ℕ) : count x0 x1 a b lo 0 = 0 := by
  unfold count; simp

/-- A stretch splits at any point. -/
theorem count_add (x0 x1 : Img.Idx → BitVec 32) (a b lo l₁ l₂ : ℕ) :
    count x0 x1 a b lo (l₁ + l₂) = count x0 x1 a b lo l₁ + count x0 x1 a b (lo + l₁) l₂ := by
  unfold count
  rw [Finset.sum_range_add]
  simp only [Nat.add_assoc]

/-- The pixel numbered `4096 · r + w` is the pixel in row `r`, column `w`. -/
theorem pixIdx_row (r w : Fin 4096) : pixIdx (4096 * r.val + w.val) = ix2 r w := by
  unfold pixIdx
  have hr := r.isLt; have hw := w.isLt
  have h1 : (4096 * r.val + w.val) / 4096 % 4096 = r.val := by omega
  have h2 : (4096 * r.val + w.val) % 4096 = w.val := by omega
  funext d
  match d with
  | ⟨0, _⟩ => exact Fin.ext h1
  | ⟨1, _⟩ => exact Fin.ext h2

/-- One row of the image, summed over its columns, is a stretch of 4096 pixel numbers. -/
theorem sum_row (x0 x1 : Img.Idx → BitVec 32) (a b : ℕ) (r : Fin 4096) :
    ∑ w : Fin 4096, hitv (x0 (ix2 r w)) (x1 (ix2 r w)) a b = count x0 x1 a b (4096 * r.val) 4096 := by
  unfold count
  rw [← Fin.sum_univ_eq_sum_range (fun n => hit x0 x1 a b (4096 * r.val + n)) 4096]
  refine Finset.sum_congr rfl fun w _ => ?_
  unfold hit
  rw [pixIdx_row]

/-- Eight consecutive rows are a stretch of 8 · 4096 pixel numbers. -/
theorem sum_rows8 (x0 x1 : Img.Idx → BitVec 32) (a b R : ℕ) :
    ∑ s : Fin 8, count x0 x1 a b (4096 * (R + s.val)) 4096 = count x0 x1 a b (4096 * R) (8 * 4096) := by
  rw [Fin.sum_univ_eight]
  rw [show 8 * 4096 = 4096 + 4096 + 4096 + 4096 + 4096 + 4096 + 4096 + 4096 by norm_num]
  simp only [count_add]
  simp only [Fin.val_zero, Fin.val_one, Fin.val_two, add_zero]
  have e : ∀ k : ℕ, 4096 * (R + k) = 4096 * R + 4096 * k := fun k => by ring
  simp only [e, Nat.add_assoc]
  rfl

end Cert.Hist

end
-- ==== Proof.RefHist.lean ====
/-
  The reference's histogram stage is the joint histogram, when every label lies in [0, 64).
-/
import proofs.«425675_j55843164782815_2_alg».proof.Proof.RefStage
import proofs.«425675_j55843164782815_2_alg».proof.Pre_any_inputs
import proofs.«425675_j55843164782815_2_alg».proof.Proof.Gen.Pre_any_inputs
import proofs.«425675_j55843164782815_2_alg».proof.Proof.HistSpec
import Idealize.ShloMosaic.Lib.ReduceAll
import Idealize.ShloMosaic.Lib.StableHlo.Predicate
import Idealize.ShloMosaic.Lib.Pipeline.Value
import Idealize.ShloMosaic.Lib.IdealHost
import Idealize.ShloMosaic.PureOps.Ideal.Laws

noncomputable section

namespace Cert.RefHist

open Cert.ReferenceIdeal Cert.ReferenceIdeal.Gen Idealize.ShloMosaic Idealize.ShloMosaic.ValueIdx

private instance : Subsingleton Cert.Pre_any_inputs.S_.Idx := ⟨fun a b => funext fun d => d.elim0⟩

/-- A word that is at least 0 and below 64 read signed is below 64 read unsigned. -/
private theorem toNat_lt_64 (w : BitVec 32) (h0 : IntOp.cmpi .sge w 0#32 = 1#1) (h1 : IntOp.cmpi .slt w 64#32 = 1#1) :
    w.toNat < 64 := by
  rw [IntOp.cmpi_sge] at h0
  rw [IntOp.cmpi_slt] at h1
  have e0 : (0#32 : BitVec 32).toInt = 0 := by decide
  have e64 : (64#32 : BitVec 32).toInt = 64 := by decide
  rw [e0] at h0; rw [e64] at h1
  have hw := w.isLt
  unfold BitVec.toInt at h0 h1
  split at h0 <;> omega

/-- The precondition read back: every label of both masks is below 64 as an unsigned word. -/
theorem labels_lt_of_pre (x0 x1 : Cert.Hist.Img.Idx → BitVec 32)
    (h : Cert.Pre_any_inputs.fn (F := Ideal) x0 x1 = fun _ => 1#1) :
    (∀ q, (x0 q).toNat < 64) ∧ (∀ q, (x1 q).toNat < 64) := by
  have e := congrFun h ix0
  unfold Cert.Pre_any_inputs.fn at e
  dsimp only at e
  -- the conjunction over all pixels is one, so the conjunct of every pixel is one
  have both : ∀ q : Cert.Hist.Img.Idx, (x0 q).toNat < 64 ∧ (x1 q).toNat < 64 := by
    intro q
    have k := Host.reduce_andi_all _ _ _ _ _ e q
    change IntOp.andi (IntOp.andi (IntOp.cmpi .sge (x0 q) 0#32) (IntOp.cmpi .slt (x0 q) 64#32))
      (IntOp.andi (IntOp.cmpi .sge (x1 q) 0#32) (IntOp.cmpi .slt (x1 q) 64#32)) = 1#1 at k
    obtain ⟨ka, kb⟩ := IntOp.andi_eq_one.1 k
    obtain ⟨ka0, ka1⟩ := IntOp.andi_eq_one.1 ka
    obtain ⟨kb0, kb1⟩ := IntOp.andi_eq_one.1 kb
    exact ⟨toNat_lt_64 _ ka0 ka1, toNat_lt_64 _ kb0 kb1⟩
  exact ⟨fun q => (both q).1, fun q => (both q).2⟩

/-- The update numbered `j` reads its start index at row `j` of the one-column index array. -/
private theorem siIdx_eq (j : S16777216.Idx) (c : Fin scatter_S4096_S16777216x1_S16777216_n_0_0_1.scatterDimsToOperandDims.length) :
    scatter_S4096_S16777216x1_S16777216_n_0_0_1.siIdx j c = (ix2 (j 0 : Fin 16777216) (0 : Fin 1) : S16777216x1.Idx) := by
  funext b
  match b with
  | ⟨0, _⟩ =>
    unfold ScatterDims.siIdx
    rw [dif_neg (by show ¬ (0 : ℕ) = 1; decide)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by show (1 : ℕ) = 1; rfl)]
    apply Fin.ext
    have hc : c.val < 1 := c.isLt
    show c.val = 0
    omega

/-- The window of update `j` starts, on the operand's one axis, at the signed value of its index word. -/
private theorem start_eq (idx : IVec S16777216x1 32) (j : S16777216.Idx) (a : Fin S4096.rank) :
    scatter_S4096_S16777216x1_S16777216_n_0_0_1.start j idx a
      = (idx (ix2 (j 0 : Fin 16777216) (0 : Fin 1) : S16777216x1.Idx)).toInt := by
  have ha : a = 0 := Subsingleton.elim _ _
  subst ha
  unfold ScatterDims.start
  rw [dif_pos (by decide)]
  rw [siIdx_eq]

/-- The operand's one axis is an inserted window axis: the window coordinate on it is 0. -/
private theorem window_eq (j : S16777216.Idx) (a : Fin S4096.rank) :
    scatter_S4096_S16777216x1_S16777216_n_0_0_1.window j a = 0 := by
  have ha : a = 0 := Subsingleton.elim _ _
  subst ha
  unfold ScatterDims.window
  rw [dif_neg (by decide)]

/-- Update `j` lands on bin `i` exactly when its index word, read signed, is `i`'s number. -/
private theorem resultIdx_iff (idx : IVec S16777216x1 32) (j : S16777216.Idx) (i : S4096.Idx) :
    scatter_S4096_S16777216x1_S16777216_n_0_0_1.resultIdx? j idx = some i ↔
      (idx (ix2 (j 0 : Fin 16777216) (0 : Fin 1) : S16777216x1.Idx)).toInt = ((i 0).val : ℤ) := by
  unfold ScatterDims.resultIdx?
  simp only [start_eq, window_eq]
  have hi : (i 0).val < 4096 := (i 0).isLt
  split
  · next h =>
    have h0 : 0 ≤ (idx (ix2 (j 0 : Fin 16777216) (0 : Fin 1) : S16777216x1.Idx)).toInt + ((0 : ℕ) : ℤ) ∧
        (idx (ix2 (j 0 : Fin 16777216) (0 : Fin 1) : S16777216x1.Idx)).toInt + ((0 : ℕ) : ℤ) < ((4096 : ℕ) : ℤ) := h 0
    constructor
    · intro e
      have e1 := congrArg Fin.val (congrFun (Option.some.inj e) 0)
      have e2 : ((idx (ix2 (j 0 : Fin 16777216) (0 : Fin 1) : S16777216x1.Idx)).toInt + ((0 : ℕ) : ℤ)).toNat = (i 0).val := e1
      omega
    · intro e
      refine congrArg some (funext fun a => ?_)
      have ha : a = 0 := Subsingleton.elim _ _
      subst ha
      apply Fin.ext
      show ((idx (ix2 (j 0 : Fin 16777216) (0 : Fin 1) : S16777216x1.Idx)).toInt + ((0 : ℕ) : ℤ)).toNat = (i 0).val
      omega
  · next h =>
    constructor
    · intro e; exact absurd e (by simp)
    · intro e
      exfalso
      apply h
      intro a
      have ha : a = 0 := Subsingleton.elim _ _
      subst ha
      show 0 ≤ (idx (ix2 (j 0 : Fin 16777216) (0 : Fin 1) : S16777216x1.Idx)).toInt + ((0 : ℕ) : ℤ) ∧
        (idx (ix2 (j 0 : Fin 16777216) (0 : Fin 1) : S16777216x1.Idx)).toInt + ((0 : ℕ) : ℤ) < ((4096 : ℕ) : ℤ)
      omega

/-- With both labels below 64 the joint word `64 · p + t` does not wrap, and it names bin (a, b) exactly
    when p is a and t is b. -/
private theorem joint_word_iff (p t : BitVec 32) (hp : p.toNat < 64) (ht : t.toNat < 64) (a b : Fin 64) :
    (p * 64#32 + t).toInt = ((a.val * 64 + b.val : ℕ) : ℤ) ↔ p = BitVec.ofNat 32 a.val ∧ t = BitVec.ofNat 32 b.val := by
  have ha := a.isLt
  have hb := b.isLt
  have h64 : (64#32 : BitVec 32).toNat = 64 := by decide
  have hN : (p * 64#32 + t).toNat = p.toNat * 64 + t.toNat := by
    rw [BitVec.toNat_add, BitVec.toNat_mul, h64]
    omega
  rw [StableHlo.Predicate.toInt_eq_toNat_of_lt (by rw [hN]; omega), hN]
  constructor
  · intro e
    have e' : p.toNat * 64 + t.toNat = a.val * 64 + b.val := by exact_mod_cast e
    refine ⟨BitVec.eq_of_toNat_eq ?_, BitVec.eq_of_toNat_eq ?_⟩
    · rw [BitVec.toNat_ofNat]; omega
    · rw [BitVec.toNat_ofNat]; omega
  · rintro ⟨rfl, rfl⟩
    rw [BitVec.toNat_ofNat, BitVec.toNat_ofNat]
    have e1 : a.val % 2 ^ 32 = a.val := Nat.mod_eq_of_lt (by omega)
    have e2 : b.val % 2 ^ 32 = b.val := Nat.mod_eq_of_lt (by omega)
    rw [e1, e2]

/-- The index array at row `n` is the joint word of the pixel numbered `n`. -/
private theorem index_read (x0 x1 : IVec S4096x4096 32) (j : S16777216.Idx) :
    (broadcastInDim S16777216x1 ![0] bcast_S16777216_S16777216x1_0
        (shapeCast S16777216 (addi (muli x0 (broadcastInDim S4096x4096 ![] bcast_S_S4096x4096 (constantI S_ 32 64#32))) x1)
          shapeCasts_S4096x4096_S16777216)) (ix2 (j 0 : Fin 16777216) (0 : Fin 1) : S16777216x1.Idx)
      = x0 (Cert.Hist.pixIdx (j 0).val) * 64#32 + x1 (Cert.Hist.pixIdx (j 0).val) := by
  have hj : (j 0).val < 16777216 := (j 0).isLt
  refine (broadcastInDim_apply _ _ _ _ (ix1 (j 0 : Fin 16777216) : S16777216.Idx) (fun a => ?_)).trans ?_
  · have ha : a = 0 := Subsingleton.elim _ _
    subst ha
    rw [if_neg (by decide)]
    rfl
  · refine (shapeCast_apply _ _ _ (Cert.Hist.pixIdx (j 0).val) ?_).trans rfl
    rw [Shape.rowMajor_val_one, Shape.rowMajor_val_two]
    unfold Cert.Hist.pixIdx
    show (j 0).val / 4096 % 4096 * 4096 + (j 0).val % 4096 = (j 0).val
    omega

/-- The update indices are the pixel numbers. -/
private def updEquiv : S16777216.Idx ≃ Fin 16777216 where
  toFun j := j 0
  invFun n := ix1 n
  left_inv j := (eq_ix1 j).symm
  right_inv _ := rfl

/-- The accumulating scatter read at a bin: the operand's element plus the updates that land on it. -/
private theorem scatterAdd_apply (x : FVec Ideal S4096 .f32) (idx : IVec S16777216x1 32) (upd : FVec Ideal S16777216 .f32)
    (i : S4096.Idx) :
    Host.scatterAdd scatter_S4096_S16777216x1_S16777216_n_0_0_1 x idx upd i
      = x i + ∑ j ∈ Finset.univ.filter (fun j => scatter_S4096_S16777216x1_S16777216_n_0_0_1.resultIdx? j idx = some i), upd j := rfl

/-- A bin that starts at zero and receives a one from every update landing on it holds the number of pixel numbers
    `n` below 16777216 with the property `Q`, when update `j` lands on the bin exactly if `Q` holds of its number. -/
private theorem bin_count (x : FVec Ideal S4096 .f32) (idx : IVec S16777216x1 32) (upd : FVec Ideal S16777216 .f32)
    (i : S4096.Idx) (hx : x i = 0) (hu : ∀ j, upd j = 1) (Q : ℕ → Prop) [DecidablePred Q]
    (hQ : ∀ j : S16777216.Idx, scatter_S4096_S16777216x1_S16777216_n_0_0_1.resultIdx? j idx = some i ↔ Q (j 0).val) :
    x i + ∑ j ∈ Finset.univ.filter (fun j => scatter_S4096_S16777216x1_S16777216_n_0_0_1.resultIdx? j idx = some i), upd j
      = ∑ n ∈ Finset.range 16777216, (if Q n then (1 : EReal) else 0) := by
  rw [hx, zero_add, Finset.sum_congr rfl (fun j _ => hu j), Finset.sum_filter]
  rw [← Fin.sum_univ_eq_sum_range (fun n => if Q n then (1 : EReal) else 0) 16777216]
  exact Fintype.sum_equiv updEquiv _ (fun n : Fin 16777216 => if Q n.val then (1 : EReal) else 0)
    (fun j => if_congr (hQ j) rfl rfl)

/-- With labels in range the scatter-add's bin (a, b) counts exactly the pixels labelled (a, b). -/
theorem refHist_eq_hist (x0 x1 : Cert.Hist.Img.Idx → BitVec 32)
    (h0 : ∀ q, (x0 q).toNat < 64) (h1 : ∀ q, (x1 q).toNat < 64) :
    refHist (F := Ideal) x0 x1 = Cert.Hist.hist x0 x1 := by
  funext i
  obtain ⟨a, b, rfl⟩ : ∃ a b, i = ix2 a b := ⟨i 0, i 1, eq_ix2 i⟩
  have ha := a.isLt
  have hb := b.isLt
  have hab : a.val * 64 + b.val < 4096 := by omega
  unfold refHist
  -- bin (a, b) of the 64 × 64 array is bin 64 · a + b of the 4096 bins
  refine (shapeCast_apply _ _ _ (ix1 (⟨a.val * 64 + b.val, hab⟩ : Fin 4096) : S4096.Idx) ?_).trans ?_
  · rw [Shape.rowMajor_val_one, Shape.rowMajor_val_two]
    rfl
  refine (scatterAdd_apply _ _ _ _).trans ?_
  -- the bin starts at zero, every update is a one, and update n lands on it exactly when pixel n is labelled (a, b)
  refine (bin_count _ _ _ _ Ideal.ofBits_zero_f32 (fun _ => Ideal.ofBits_one_f32)
    (fun n => x0 (Cert.Hist.pixIdx n) = BitVec.ofNat 32 a.val ∧ x1 (Cert.Hist.pixIdx n) = BitVec.ofNat 32 b.val)
    (fun j => ?_)).trans ?_
  · refine (resultIdx_iff _ j _).trans ?_
    rw [index_read x0 x1 j]
    exact joint_word_iff _ _ (h0 _) (h1 _) a b
  · unfold Cert.Hist.hist Cert.Hist.count
    refine Finset.sum_congr rfl (fun n _ => ?_)
    rw [Nat.zero_add]
    rfl

end Cert.RefHist

end
-- ==== Proof.Tail.lean ====
/-
  Everything both programs compute AFTER the joint histogram, as one function of the 64 × 64 histogram: the per-id
  pixel counts (row and column sums), the intersection-over-union of every pair of foreground ids, the best match of
  each present id, and the mean of one minus that over the present ids. Both programs spell this stretch with the same
  operations in the same order, so it is named once and never opened: the two results are this one function of two
  histograms, and the histograms are equal.
-/
import proofs.«425675_j55843164782815_2_alg».proof.Proof.RefRunPatched
import proofs.«425675_j55843164782815_2_alg».proof.Proof.RefStage

noncomputable section

namespace Cert.Tail

open Cert.ReferenceIdeal Cert.ReferenceIdeal.Gen Idealize.ShloMosaic Idealize.ShloMosaic.TcCoe Idealize.SL.Sem

variable {F : FTy → Type} [FloatOps F]

set_option maxRecDepth 8192 in
/-- The loss as a function of the joint histogram `h`. -/
def tail (h : FVec F S64x64 .f32) : FVec F S_ .f32 :=
  select (cmpf (F := F) .ogt (addf (Host.reduceAdd (uitofp (F := F) .f32 (cmpf (F := F) .ogt (extractStridedSlice S63 ![1] (Host.reduceAdd h (constant S_ .f32 0x00000000#32) reducesTo_S64x64_S64_d1 h_S_) slices_S64_S63_1) (broadcastInDim S63 ![] bcast_S_S63 (constant S_ .f32 0x00000000#32)))) (constant S_ .f32 0x00000000#32) reducesTo_S63_S_d0 h_S_) (Host.reduceAdd (uitofp (F := F) .f32 (cmpf (F := F) .ogt (extractStridedSlice S63 ![1] (Host.reduceAdd h (constant S_ .f32 0x00000000#32) reducesTo_S64x64_S64_d0 h_S_) slices_S64_S63_1) (broadcastInDim S63 ![] bcast_S_S63 (constant S_ .f32 0x00000000#32)))) (constant S_ .f32 0x00000000#32) reducesTo_S63_S_d0 h_S_)) (constant S_ .f32 0x00000000#32)) (Host.divf (addf (Host.reduceAdd (mulf (uitofp (F := F) .f32 (cmpf (F := F) .ogt (extractStridedSlice S63 ![1] (Host.reduceAdd h (constant S_ .f32 0x00000000#32) reducesTo_S64x64_S64_d1 h_S_) slices_S64_S63_1) (broadcastInDim S63 ![] bcast_S_S63 (constant S_ .f32 0x00000000#32)))) (subf (broadcastInDim S63 ![] bcast_S_S63 (constant S_ .f32 0x3F800000#32)) (Host.reduce FloatOps.maximumf (select (cmpf (F := F) .ogt (subf (addf (broadcastInDim S63x63 ![0, 1] bcast_S63x1_S63x63_0_1 (broadcastInDim S63x1 ![0] bcast_S63_S63x1_0 (extractStridedSlice S63 ![1] (Host.reduceAdd h (constant S_ .f32 0x00000000#32) reducesTo_S64x64_S64_d1 h_S_) slices_S64_S63_1))) (broadcastInDim S63x63 ![0, 1] bcast_S1x63_S63x63_0_1 (broadcastInDim S1x63 ![1] bcast_S63_S1x63_1 (extractStridedSlice S63 ![1] (Host.reduceAdd h (constant S_ .f32 0x00000000#32) reducesTo_S64x64_S64_d0 h_S_) slices_S64_S63_1)))) (extractStridedSlice S63x63 ![1, 1] h slices_S64x64_S63x63_1_1)) (broadcastInDim S63x63 ![] bcast_S_S63x63 (constant S_ .f32 0x00000000#32))) (Host.divf (extractStridedSlice S63x63 ![1, 1] h slices_S64x64_S63x63_1_1) (maximumf (subf (addf (broadcastInDim S63x63 ![0, 1] bcast_S63x1_S63x63_0_1 (broadcastInDim S63x1 ![0] bcast_S63_S63x1_0 (extractStridedSlice S63 ![1] (Host.reduceAdd h (constant S_ .f32 0x00000000#32) reducesTo_S64x64_S64_d1 h_S_) slices_S64_S63_1))) (broadcastInDim S63x63 ![0, 1] bcast_S1x63_S63x63_0_1 (broadcastInDim S1x63 ![1] bcast_S63_S1x63_1 (extractStridedSlice S63 ![1] (Host.reduceAdd h (constant S_ .f32 0x00000000#32) reducesTo_S64x64_S64_d0 h_S_) slices_S64_S63_1)))) (extractStridedSlice S63x63 ![1, 1] h slices_S64x64_S63x63_1_1)) (broadcastInDim S63x63 ![] bcast_S_S63x63 (constant S_ .f32 0x3F800000#32)))) (broadcastInDim S63x63 ![] bcast_S_S63x63 (id (constant S_ .f32 0x00000000#32)))) (constant S_ .f32 0xFF800000#32) reducesTo_S63x63_S63_d1 h_S_))) (constant S_ .f32 0x00000000#32) reducesTo_S63_S_d0 h_S_) (Host.reduceAdd (mulf (uitofp (F := F) .f32 (cmpf (F := F) .ogt (extractStridedSlice S63 ![1] (Host.reduceAdd h (constant S_ .f32 0x00000000#32) reducesTo_S64x64_S64_d0 h_S_) slices_S64_S63_1) (broadcastInDim S63 ![] bcast_S_S63 (constant S_ .f32 0x00000000#32)))) (subf (broadcastInDim S63 ![] bcast_S_S63 (constant S_ .f32 0x3F800000#32)) (Host.reduce FloatOps.maximumf (select (cmpf (F := F) .ogt (subf (addf (broadcastInDim S63x63 ![0, 1] bcast_S63x1_S63x63_0_1 (broadcastInDim S63x1 ![0] bcast_S63_S63x1_0 (extractStridedSlice S63 ![1] (Host.reduceAdd h (constant S_ .f32 0x00000000#32) reducesTo_S64x64_S64_d1 h_S_) slices_S64_S63_1))) (broadcastInDim S63x63 ![0, 1] bcast_S1x63_S63x63_0_1 (broadcastInDim S1x63 ![1] bcast_S63_S1x63_1 (extractStridedSlice S63 ![1] (Host.reduceAdd h (constant S_ .f32 0x00000000#32) reducesTo_S64x64_S64_d0 h_S_) slices_S64_S63_1)))) (extractStridedSlice S63x63 ![1, 1] h slices_S64x64_S63x63_1_1)) (broadcastInDim S63x63 ![] bcast_S_S63x63 (constant S_ .f32 0x00000000#32))) (Host.divf (extractStridedSlice S63x63 ![1, 1] h slices_S64x64_S63x63_1_1) (maximumf (subf (addf (broadcastInDim S63x63 ![0, 1] bcast_S63x1_S63x63_0_1 (broadcastInDim S63x1 ![0] bcast_S63_S63x1_0 (extractStridedSlice S63 ![1] (Host.reduceAdd h (constant S_ .f32 0x00000000#32) reducesTo_S64x64_S64_d1 h_S_) slices_S64_S63_1))) (broadcastInDim S63x63 ![0, 1] bcast_S1x63_S63x63_0_1 (broadcastInDim S1x63 ![1] bcast_S63_S1x63_1 (extractStridedSlice S63 ![1] (Host.reduceAdd h (constant S_ .f32 0x00000000#32) reducesTo_S64x64_S64_d0 h_S_) slices_S64_S63_1)))) (extractStridedSlice S63x63 ![1, 1] h slices_S64x64_S63x63_1_1)) (broadcastInDim S63x63 ![] bcast_S_S63x63 (constant S_ .f32 0x3F800000#32)))) (broadcastInDim S63x63 ![] bcast_S_S63x63 (id (constant S_ .f32 0x00000000#32)))) (constant S_ .f32 0xFF800000#32) reducesTo_S63x63_S63_d0 h_S_))) (constant S_ .f32 0x00000000#32) reducesTo_S63_S_d0 h_S_)) (maximumf (addf (Host.reduceAdd (uitofp (F := F) .f32 (cmpf (F := F) .ogt (extractStridedSlice S63 ![1] (Host.reduceAdd h (constant S_ .f32 0x00000000#32) reducesTo_S64x64_S64_d1 h_S_) slices_S64_S63_1) (broadcastInDim S63 ![] bcast_S_S63 (constant S_ .f32 0x00000000#32)))) (constant S_ .f32 0x00000000#32) reducesTo_S63_S_d0 h_S_) (Host.reduceAdd (uitofp (F := F) .f32 (cmpf (F := F) .ogt (extractStridedSlice S63 ![1] (Host.reduceAdd h (constant S_ .f32 0x00000000#32) reducesTo_S64x64_S64_d0 h_S_) slices_S64_S63_1) (broadcastInDim S63 ![] bcast_S_S63 (constant S_ .f32 0x00000000#32)))) (constant S_ .f32 0x00000000#32) reducesTo_S63_S_d0 h_S_)) (constant S_ .f32 0x3F800000#32))) (id (constant S_ .f32 0x00000000#32))

set_option maxRecDepth 8192 in
set_option maxHeartbeats 4000000 in
/-- The reference's result is the loss of its histogram stage. -/
theorem ref_result (m : (ℓ : Loc nD τ sig) → Buf (Elt F) ℓ) (c : Dev nD) :
    Cert.ReferenceIdeal.ValueP.res_main_v49 m c
      = tail (Cert.RefHist.refHist (m ((c.tc : Thread nD τ).loc main_arg0)) (m ((c.tc : Thread nD τ).loc main_arg1))) := by
  unfold Cert.ReferenceIdeal.ValueP.res_main_v49 tail Cert.RefHist.refHist
  rfl

end Cert.Tail

end
-- ==== Proof.PayHist.lean ====
/-
  One trip of the kernel's inner loop, read at a bin: the carried value plus, over the eight loaded rows and their
  4096 columns, one for every pixel whose pair of labels is the bin's pair of ids.

  The trip compares each of the two blocks of labels with the ids 0 … 63 laid along a third axis, which gives two
  planes of indicators: L at (s, w, a) is one where the first label of pixel (s, w) is a, R at (s, w, b) is one where
  its second label is b. Row by row it multiplies the planes over the columns, so that entry (s, a, b) of the product is
  ∑ w, L (s, w, a) · R (s, w, b), adds the eight rows up, and adds the result to the carried value. A product of two
  indicators is the indicator of the pair, so entry (a, b) of the trip's sum counts the pixels of the eight rows whose
  pair of labels is (a, b).
-/
import proofs.«425675_j55843164782815_2_alg».proof.Proof.Gen.KernelIdeal.Skeleton
import proofs.«425675_j55843164782815_2_alg».proof.Proof.HistSpec
import Idealize.ShloMosaic.Lib.Pipeline.Value
import Idealize.ShloMosaic.Lib.ValueLayout
import Idealize.ShloMosaic.Lib.IdealHost
import Idealize.ShloMosaic.PureOps.Ideal.Laws

noncomputable section

namespace Cert.PayHist

open Cert.KernelIdeal Cert.KernelIdeal.Gen Idealize.ShloMosaic Idealize.ShloMosaic.ValueIdx

/-! ## One element: an equality test as a number -/

/-- An equality test of two words, widened to a word and converted to a float, is the indicator of the equality:
    the test's bit is one exactly when the words are equal, the widened bit read signed is that same 0 or 1, and the
    conversion of an integer is exact. -/
private theorem ind_eq (p q : BitVec 32) :
    FloatOps.sitofp (F := Ideal) .f32 ((IntOp.cmpi .eq p q).setWidth 32) = if p = q then (1 : EReal) else 0 := by
  have e1 : ((BitVec.ofBool true).setWidth 32).toInt = 1 := by decide
  have e0 : ((BitVec.ofBool false).setWidth 32).toInt = 0 := by decide
  show ((((BitVec.ofBool (p == q)).setWidth 32).toInt : ℝ) : EReal) = _
  by_cases h : p = q
  · rw [if_pos h, show (p == q) = true from beq_iff_eq.mpr h, e1]
    norm_num
  · rw [if_neg h, show (p == q) = false from beq_eq_false_iff_ne.mpr h, e0]
    norm_num

/-- The product of the indicator of "the first label is a" and the indicator of "the second label is b" is the
    indicator of "the pair of labels is (a, b)". -/
private theorem ind_mul (p t : BitVec 32) (a b : ℕ) :
    (if p = BitVec.ofNat 32 a then (1 : EReal) else 0) * (if t = BitVec.ofNat 32 b then (1 : EReal) else 0)
      = Cert.Hist.hitv p t a b := by
  unfold Cert.Hist.hitv
  split_ifs <;> simp_all

/-! ## A plane of indicators at an index -/

/-- The plane of indicators of a block of labels, at (s, w, c): the block is given a third axis of extent one and
    repeated 64 times along it, so at (s, w, c) it reads the label at (s, w); the ids along the third axis read c
    there; and the converted test of the two is one exactly when the label at (s, w) is the id c. The narrowing to
    the shorter float format keeps the value. -/
private theorem onehot_apply (v : Vec Ideal S8x4096 .i32) (s : Fin 8) (w : Fin 4096) (c : Fin 64) :
    (truncf .bf16 (sitofp .f32 (extui 32 (cmpi .eq
        (broadcastTo S8x4096x64 (shapeCast S8x4096x1 v Facts₀.shapeCasts_S8x4096_S8x4096x1)
          Facts₀.broadcasts_S8x4096x1_S8x4096x64)
        (iota .tc S8x4096x64 32 [2] Facts₀.iota_S8x4096x64_d2_w32)) Facts₀.natLt_1_32)) Facts₀.bitsLt_bf16_f32
          : FVec Ideal S8x4096x64 .bf16) (ix3 s w c)
      = if v (ix2 s w) = BitVec.ofNat 32 c.val then (1 : EReal) else 0 := by
  -- the repeated block at (s, w, c) is the block with its unit axis at (s, w, 0), which is the block at (s, w):
  -- both have row-major position 4096 · s + w
  have hb : broadcastTo S8x4096x64 (shapeCast S8x4096x1 v Facts₀.shapeCasts_S8x4096_S8x4096x1)
      Facts₀.broadcasts_S8x4096x1_S8x4096x64 (ix3 s w c) = v (ix2 s w) := by
    refine (broadcastTo_apply _ _ (ix3 s w c) (ix3 s w (0 : Fin 1)) ?_).trans ?_
    · intro d
      match d with
      | ⟨0, _⟩ => rfl
      | ⟨1, _⟩ => rfl
      | ⟨2, _⟩ => rfl
    · exact shapeCast_apply v _ (ix3 s w (0 : Fin 1)) (ix2 s w) (by
        rw [Shape.rowMajor_val_two, Shape.rowMajor_val_three]
        show s.val * 4096 + w.val = (s.val * 4096 + w.val) * 1 + 0
        omega)
  -- the ids along the third axis read the third coordinate
  have hi : iota .tc S8x4096x64 32 [2] Facts₀.iota_S8x4096x64_d2_w32 (ix3 s w c) = BitVec.ofNat 32 c.val :=
    iota_single_apply .tc S8x4096x64 32 2 _ (ix3 s w c)
  show FloatOps.sitofp (F := Ideal) .f32 ((IntOp.cmpi .eq
      (broadcastTo S8x4096x64 (shapeCast S8x4096x1 v Facts₀.shapeCasts_S8x4096_S8x4096x1)
        Facts₀.broadcasts_S8x4096x1_S8x4096x64 (ix3 s w c))
      (iota .tc S8x4096x64 32 [2] Facts₀.iota_S8x4096x64_d2_w32 (ix3 s w c))).setWidth 32) = _
  rw [hb, hi]
  exact ind_eq _ _

/-! ## The sum over the eight rows -/

/-- Summing the [8, 64, 64] product over its first axis into [64, 64]: the index that row s contributes to the bin
    (a, b) is (s, a, b). -/
private theorem lift_eq (h : S8x64x64.Reduces [0] S64x64) (a b : Fin 64) (s : Fin 8) :
    h.lift (ix2 a b) s = ix3 s a b := by
  funext d
  match d with
  | ⟨0, _⟩ => exact Fin.ext rfl
  | ⟨1, _⟩ => exact Fin.ext rfl
  | ⟨2, _⟩ => exact Fin.ext rfl

/-! ## The batched product at an index

The product carries axis 0 of both operands through as the batch axis, contracts axis 1 of both, and puts the left
operand's axis 2 before the right operand's in the result. So at the result index j = (s, a, b) and the contraction
position k, the left operand is read at (j 0, k, j 1) and the right operand at (j 0, k, j 2): one lemma per operand
and axis. -/

private theorem lhs_0 (j : S8x64x64.Idx) (k : dot_S8x4096x64_S8x4096x64_S8x64x64_1_1_2_2_0_0.contr.Idx) :
    (dot_S8x4096x64_S8x4096x64_S8x64x64_1_1_2_2_0_0.lhsIdx j k 0).val = (j 0).val := rfl
private theorem lhs_1 (j : S8x64x64.Idx) (k : dot_S8x4096x64_S8x4096x64_S8x64x64_1_1_2_2_0_0.contr.Idx) :
    (dot_S8x4096x64_S8x4096x64_S8x64x64_1_1_2_2_0_0.lhsIdx j k 1).val = (k ⟨0, by decide⟩).val :=
  DotDims.lhsIdx_val_of_single _ rfl j k
private theorem lhs_2 (j : S8x64x64.Idx) (k : dot_S8x4096x64_S8x4096x64_S8x64x64_1_1_2_2_0_0.contr.Idx) :
    (dot_S8x4096x64_S8x4096x64_S8x64x64_1_1_2_2_0_0.lhsIdx j k 2).val = (j 1).val := rfl
private theorem rhs_0 (j : S8x64x64.Idx) (k : dot_S8x4096x64_S8x4096x64_S8x64x64_1_1_2_2_0_0.contr.Idx) :
    (dot_S8x4096x64_S8x4096x64_S8x64x64_1_1_2_2_0_0.rhsIdx j k 0).val = (j 0).val := rfl
private theorem rhs_1 (j : S8x64x64.Idx) (k : dot_S8x4096x64_S8x4096x64_S8x64x64_1_1_2_2_0_0.contr.Idx) :
    (dot_S8x4096x64_S8x4096x64_S8x64x64_1_1_2_2_0_0.rhsIdx j k 1).val = (k ⟨0, by decide⟩).val :=
  DotDims.rhsIdx_val_of_single _ rfl j k
private theorem rhs_2 (j : S8x64x64.Idx) (k : dot_S8x4096x64_S8x4096x64_S8x64x64_1_1_2_2_0_0.contr.Idx) :
    (dot_S8x4096x64_S8x4096x64_S8x64x64_1_1_2_2_0_0.rhsIdx j k 2).val = (j 2).val := rfl

/-- The batched product into the zero block, at (s, a, b): the sum over the 4096 columns w of row s of the products
    of the two operands at (s, w, a) and (s, w, b). The contraction has one axis of extent 4096, so its positions are
    the columns. -/
private theorem mm_apply (L R : FVec Ideal S8x4096x64 .bf16) (s : Fin 8) (a b : Fin 64) :
    matmul dot_S8x4096x64_S8x4096x64_S8x64x64_1_1_2_2_0_0 none L R
        (constant (F := Ideal) S8x64x64 .f32 0x00000000#32) (ix3 s a b)
      = ∑ w : Fin 4096, L (ix3 s w a) * R (ix3 s w b) := by
  refine (Ideal.matmul_constant_zero_apply dot_S8x4096x64_S8x4096x64_S8x64x64_1_1_2_2_0_0 none L R (ix3 s a b)).trans ?_
  rw [← Equiv.sum_comp (contrEquiv1 dot_S8x4096x64_S8x4096x64_S8x64x64_1_1_2_2_0_0 4096 rfl rfl).symm]
  refine Finset.sum_congr rfl fun w _ => ?_
  have hk := contrEquiv1_symm_val dot_S8x4096x64_S8x4096x64_S8x64x64_1_1_2_2_0_0 4096 rfl rfl w
  have el : dot_S8x4096x64_S8x4096x64_S8x64x64_1_1_2_2_0_0.lhsIdx (ix3 s a b)
      ((contrEquiv1 dot_S8x4096x64_S8x4096x64_S8x64x64_1_1_2_2_0_0 4096 rfl rfl).symm w) = ix3 s w a := by
    funext d
    match d with
    | ⟨0, _⟩ => exact Fin.ext (lhs_0 _ _)
    | ⟨1, _⟩ => exact Fin.ext ((lhs_1 _ _).trans hk)
    | ⟨2, _⟩ => exact Fin.ext (lhs_2 _ _)
  have er : dot_S8x4096x64_S8x4096x64_S8x64x64_1_1_2_2_0_0.rhsIdx (ix3 s a b)
      ((contrEquiv1 dot_S8x4096x64_S8x4096x64_S8x64x64_1_1_2_2_0_0 4096 rfl rfl).symm w) = ix3 s w b := by
    funext d
    match d with
    | ⟨0, _⟩ => exact Fin.ext (rhs_0 _ _)
    | ⟨1, _⟩ => exact Fin.ext ((rhs_1 _ _).trans hk)
    | ⟨2, _⟩ => exact Fin.ext (rhs_2 _ _)
  rw [el, er]

/-! ## The trip at a bin -/

theorem pay3_apply (acc : FVec Ideal S64x64 .f32) (v13 v15 : Vec Ideal S8x4096 .i32) (i : S64x64.Idx) :
    k0_pay3 (F := Ideal) acc v13 v15 i
      = acc i + ∑ s : Fin 8, ∑ w : Fin 4096, Cert.Hist.hitv (v13 (ix2 s w)) (v15 (ix2 s w)) (i 0).val (i 1).val := by
  obtain ⟨a, b, rfl⟩ : ∃ (a : Fin 64) (b : Fin 64), i = ix2 a b := ⟨i 0, i 1, eq_ix2 i⟩
  show _ = acc (ix2 a b) + ∑ s : Fin 8, ∑ w : Fin 4096, Cert.Hist.hitv (v13 (ix2 s w)) (v15 (ix2 s w)) a.val b.val
  unfold k0_pay3
  -- the carried value plus the sum over the eight rows of the product at (s, a, b)
  rw [addf_apply]
  refine congrArg (acc (ix2 a b) + ·) ?_
  refine (Ideal.multiReduction_add_single _ _ _ _ _ (ix2 a b)).trans ?_
  refine Finset.sum_congr rfl fun (s : Fin 8) _ => ?_
  rw [lift_eq]
  -- the product at (s, a, b) is the sum over the columns of the products of the two indicators
  refine (mm_apply _ _ s a b).trans ?_
  refine Finset.sum_congr rfl fun w _ => ?_
  rw [onehot_apply, onehot_apply]
  exact ind_mul _ _ _ _

end Cert.PayHist

end
-- ==== Proof.KernelHist.lean ====
/-
  The kernel's result array is the joint histogram.

  The pallas_call walks the image in sixteen blocks of 256 rows; at each block the body adds, in 32 trips of a loop,
  eight rows at a time, one for every pixel of those rows whose pair of labels is the bin's pair of ids, to a
  carried 64 × 64 value that starts at zero, and then adds the loop's result to the output block — which the first
  grid point clears first and which is written back after the last point only. Numbering the pixels row-major, a
  row is a stretch of 4096 consecutive pixel numbers, eight rows a stretch of 8 · 4096, a block a stretch of
  256 · 4096; after trip n of block g the carried value is the count over the first 8 · 4096 · n pixels of the
  block, and after block g the output block is the count over the first 256 · 4096 · (g + 1) pixels of the image.
  The only law used is that a count over a stretch splits at any point.
-/
import proofs.«425675_j55843164782815_2_alg».proof.Proof.Gen.KernelIdeal.Frame
import proofs.«425675_j55843164782815_2_alg».proof.Proof.PayHist
import proofs.«425675_j55843164782815_2_alg».proof.Proof.HistSpec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HistValue

open Cert.KernelIdeal Cert.KernelIdeal.Gen Cert.Hist

theorem hz : (![0, 0] : Fin 2 → Nat) = fun _ => 0 := funext fun a => by fin_cases a <;> rfl

/-- The loop makes 32 trips. -/
theorem trips_eq : k0_t1_loop.trips = 32 := by decide

/-! ## One trip -/

/-- Row `s` of trip `k`'s eight rows, as a row of the staged block. -/
def tripRow (k : Fin k0_t1_loop.trips) (s : Fin 8) : Fin 256 :=
  ⟨8 * k.val + s.val, by have h : k.val < 32 := lt_of_lt_of_eq k.isLt trips_eq; have := s.isLt; omega⟩

/-- What a trip loads of a staged block: its rows 8k, …, 8k + 7. -/
theorem ld_tripRow (x : Vec Ideal S256x4096 .i32) (k : Fin k0_t1_loop.trips) (s : Fin 8) (w : Fin 4096) :
    View.ld x (Rect.unit (s := S256x4096) (k0_off1 k) S8x4096.size (k0_off1_inb k)) (ix2 s w)
      = x (ix2 (tripRow k s) w) := by
  show x _ = x _
  congr 1
  funext a
  apply Fin.ext
  have e := k0_off1_eq k
  match a with
  | ⟨0, _⟩ => show k0_off1 k 0 + 1 * s.val = 8 * k.val + s.val; rw [e]; show 8 * k.val + 1 * s.val = _; omega
  | ⟨1, _⟩ => show k0_off1 k 1 + 1 * w.val = w.val; rw [e]; show 0 + 1 * w.val = _; omega

/-- One trip at a bin: the carried value plus the matches among the trip's eight rows of the two staged blocks. -/
theorem trip_apply (𝒱 : Variants) (c : Dev nD) (bd : Option 𝒱.V) (i : grid0.Coords)
    (arg1 : Memref sig .tc .vmem S256x4096 .i32) (harg1 : arg1.IsWhole) (arg2 : Memref sig .tc .vmem S256x4096 .i32) (harg2 : arg2.IsWhole)
    (arg3 : Memref sig .tc .vmem S64x64 .f32) (harg3 : arg3.IsWhole) (x0 x1 : Vec Ideal S256x4096 .i32)
    (k : Fin k0_t1_loop.trips) (acc : FVec Ideal S64x64 .f32) (j : S64x64.Idx) :
    tripR_k0_t1 (F := Ideal) 𝒱 c bd i arg1 harg1 arg2 harg2 arg3 harg3 (harg1.unread x0) (harg2.unread x1) k acc j
      = acc j + ∑ s : Fin 8, ∑ w : Fin 4096,
          hitv (x0 (ix2 (tripRow k s) w)) (x1 (ix2 (tripRow k s) w)) (j 0).val (j 1).val := by
  unfold tripR_k0_t1 trip_k0_t1
  dsimp only
  rw [Cert.PayHist.pay3_apply]
  refine congrArg (acc j + ·) (Finset.sum_congr rfl fun s _ => Finset.sum_congr rfl fun w _ => ?_)
  simp only [View.readAt_eq_ld, harg1.read_unread, harg2.read_unread]
  rw [ld_tripRow, ld_tripRow]

/-! ## The loop -/

/-- The carried value before trip `n`, when the two staged blocks are rows 256g, …, 256g + 255 of two images:
    the initial value plus the count over the block's first 8 · 4096 · n pixels. -/
theorem st_apply (𝒱 : Variants) (c : Dev nD) (bd : Option 𝒱.V) (i : grid0.Coords)
    (arg1 : Memref sig .tc .vmem S256x4096 .i32) (harg1 : arg1.IsWhole) (arg2 : Memref sig .tc .vmem S256x4096 .i32) (harg2 : arg2.IsWhole)
    (arg3 : Memref sig .tc .vmem S64x64 .f32) (harg3 : arg3.IsWhole) (x0 x1 : Vec Ideal S256x4096 .i32)
    (X0 X1 : Img.Idx → BitVec 32) (g : ℕ) (hg : g < 16)
    (h0 : ∀ (r : Fin 256) (w : Fin 4096), x0 (ix2 r w) = X0 (ix2 (⟨256 * g + r.val, by have := r.isLt; omega⟩ : Fin 4096) w))
    (h1 : ∀ (r : Fin 256) (w : Fin 4096), x1 (ix2 r w) = X1 (ix2 (⟨256 * g + r.val, by have := r.isLt; omega⟩ : Fin 4096) w))
    (init : FVec Ideal S64x64 .f32) (j : S64x64.Idx) :
    ∀ n, n ≤ 32 →
      st_k0_t1 (F := Ideal) 𝒱 c bd i arg1 harg1 arg2 harg2 arg3 harg3 (harg1.unread x0) (harg2.unread x1) init n j
        = init j + count X0 X1 (j 0).val (j 1).val (4096 * (256 * g)) (8 * 4096 * n)
  | 0, _ => by rw [st_k0_t1_zero, Nat.mul_zero, count_zero, add_zero]
  | n + 1, hn => by
    have hk : n < k0_t1_loop.trips := by rw [trips_eq]; omega
    refine (congrFun (st_k0_t1_succ (F := Ideal) 𝒱 c bd i arg1 harg1 arg2 harg2 arg3 harg3 (harg1.unread x0) (harg2.unread x1) init ⟨n, hk⟩) j).trans ?_
    rw [trip_apply]
    show st_k0_t1 (F := Ideal) 𝒱 c bd i arg1 harg1 arg2 harg2 arg3 harg3 (harg1.unread x0) (harg2.unread x1) init n j + _ = _
    rw [st_apply 𝒱 c bd i arg1 harg1 arg2 harg2 arg3 harg3 x0 x1 X0 X1 g hg h0 h1 init j n (by omega)]
    have hsum : (∑ s : Fin 8, ∑ w : Fin 4096,
          hitv (x0 (ix2 (tripRow ⟨n, hk⟩ s) w)) (x1 (ix2 (tripRow ⟨n, hk⟩ s) w)) (j 0).val (j 1).val)
        = count X0 X1 (j 0).val (j 1).val (4096 * (256 * g + 8 * n)) (8 * 4096) := by
      rw [← sum_rows8]
      refine Finset.sum_congr rfl fun s _ => ?_
      have hs := s.isLt
      refine Eq.trans ?_ (sum_row X0 X1 (j 0).val (j 1).val (⟨256 * g + 8 * n + s.val, by omega⟩ : Fin 4096))
      refine Finset.sum_congr rfl fun w _ => ?_
      rw [h0, h1]
      have e : (⟨256 * g + (tripRow ⟨n, hk⟩ s).val, by have := (tripRow ⟨n, hk⟩ s).isLt; omega⟩ : Fin 4096)
          = ⟨256 * g + 8 * n + s.val, by omega⟩ := Fin.ext (by show 256 * g + (8 * n + s.val) = 256 * g + 8 * n + s.val; omega)
      rw [e]
    rw [hsum, add_assoc]
    refine congrArg (init j + ·) ?_
    rw [show 8 * 4096 * (n + 1) = 8 * 4096 * n + 8 * 4096 by ring, count_add]
    rw [show 4096 * (256 * g) + 8 * 4096 * n = 4096 * (256 * g + 8 * n) by ring]

/-! ## The two control cases -/

/-- The zero block (the reset's payload and the loop's initial value) reads zero. -/
theorem pay1_apply (j : S64x64.Idx) : (k0_pay1 (F := Ideal)) j = 0 := by
  show Ideal.ofBits .f32 0x00000000#32 = 0
  exact Ideal.ofBits_zero_f32
theorem pay2_apply (j : S64x64.Idx) : (k0_pay2 (F := Ideal)) j = 0 := by
  show Ideal.ofBits .f32 0x00000000#32 = 0
  exact Ideal.ofBits_zero_f32

/-- A grid point after the first leaves, in the output block holding `xo`, `xo` plus the loop's result. -/
theorem out_B (c : Dev nD) (i : grid0.Coords)
    (arg1 : Memref sig .tc .vmem S256x4096 .i32) (harg1 : arg1.IsWhole) (arg2 : Memref sig .tc .vmem S256x4096 .i32) (harg2 : arg2.IsWhole)
    (arg3 : Memref sig .tc .vmem S64x64 .f32) (harg3 : arg3.IsWhole) (hc0 : ¬cond0_0 i)
    (x0 x1 : Vec Ideal S256x4096 .i32) (xo : Vec Ideal S64x64 .f32) :
    out0_B_2 c i arg1 harg1 arg2 harg2 arg3 harg3 hc0 x0 x1 xo
      = addf xo (st_k0_t1 (F := Ideal) Variants.none c none i arg1 harg1 arg2 harg2 arg3 harg3 (harg1.unread x0) (harg2.unread x1)
          (k0_pay2 (F := Ideal)) k0_t1_loop.trips) := by
  unfold out0_B_2
  rw [View.read_writes_eq_canon _ _ _ (cover0_B_2 c i arg1 harg1 arg2 harg2 arg3 harg3 hc0 x0 x1 xo)]
  unfold kernelRun0_B
  dsimp only
  rw [View.canon_unit_zero hz]
  unfold k0_pay4
  simp only [View.readAt_eq_ld, harg3.read_unread, View.ld_unit_zero (S := S64x64) hz, shapeCast_self]

/-- The first grid point clears the output block, reads the zeros back, and leaves zero plus the loop's result. -/
theorem out_A (c : Dev nD) (i : grid0.Coords)
    (arg1 : Memref sig .tc .vmem S256x4096 .i32) (harg1 : arg1.IsWhole) (arg2 : Memref sig .tc .vmem S256x4096 .i32) (harg2 : arg2.IsWhole)
    (arg3 : Memref sig .tc .vmem S64x64 .f32) (harg3 : arg3.IsWhole) (hc0 : cond0_0 i)
    (x0 x1 : Vec Ideal S256x4096 .i32) :
    out0_A_2 c i arg1 harg1 arg2 harg2 arg3 harg3 hc0 x0 x1
      = addf (k0_pay1 (F := Ideal)) (st_k0_t1 (F := Ideal) Variants.none c none i arg1 harg1 arg2 harg2 arg3 harg3 (harg1.unread x0) (harg2.unread x1)
          (k0_pay2 (F := Ideal)) k0_t1_loop.trips) := by
  unfold out0_A_2
  rw [View.read_writes_eq_canon _ _ _ (cover0_A_2 c i arg1 harg1 arg2 harg2 arg3 harg3 hc0 x0 x1)]
  unfold kernelRun0_A
  dsimp only
  sl_unfold_words
  rw [View.canon_cons_unit_zero (S := S64x64) hz, View.readCov_unit_zero (S := S64x64) _ hz]
  unfold k0_pay4
  simp only [shapeCast_self]

end Cert.KernelIdeal.HistValue

end
-- ==== Proof.KernelRun.lean ====
/-
  From the body's cases to the program's result: the output block after grid point n holds the count over the
  first 256 · 4096 · (n + 1) pixels of the image (by induction on the point), the one write-back after the last
  point leaves the whole histogram in the result array, and the operations after the pallas_call apply the common
  closing function to it.
-/
import proofs.«425675_j55843164782815_2_alg».proof.Proof.KernelHist
import proofs.«425675_j55843164782815_2_alg».proof.Proof.Tail
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HistValue

open Cert.KernelIdeal Cert.KernelIdeal.Gen Cert.Hist Idealize.ShloMosaic.StableHlo

variable (m : (ℓ : Loc nD τ sig) → Buf (Elt Ideal) ℓ) (ρ : Dev nD → PrngReg)

/-- The two staged blocks at a grid point, and the two images as the pallas_call finds them. -/
abbrev blk0 (c : Dev nD) (t : Fin cfg0.N) : Vec Ideal S256x4096 .i32 := iblk m c 0 t
abbrev blk1 (c : Dev nD) (t : Fin cfg0.N) : Vec Ideal S256x4096 .i32 := iblk m c 1 t
abbrev img0 (c : Dev nD) : Img.Idx → BitVec 32 := V m c main_arg0
abbrev img1 (c : Dev nD) : Img.Idx → BitVec 32 := V m c main_arg1

/-- Both input windows are at block (t, 0) at grid point t. -/
theorem idx_facts : ∀ t : Fin cfg0.N,
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0)

theorem lt16 (t : Fin cfg0.N) : t.val < 16 := lt_of_lt_of_eq t.isLt (show cfg0.N = 16 from N_0)

/-- Row r of the block staged at point t is row 256 t + r of the image. -/
theorem blk0_apply (c : Dev nD) (t : Fin cfg0.N) (r : Fin 256) (w : Fin 4096) :
    blk0 m c t (ix2 r w) = img0 m c (ix2 (⟨256 * t.val + r.val, by have := lt16 t; have := r.isLt; omega⟩ : Fin 4096) w) := by
  obtain ⟨h00, h01, -, -⟩ := idx_facts t
  show iblk m c 0 t (ix2 r w) = V m c main_arg0 _
  unfold iblk
  rw [View.read_apply]
  show V m c main_arg0 _ = V m c main_arg0 _
  congr 1
  funext a
  apply Fin.ext
  match a with
  | ⟨0, _⟩ => show win0_0.index t 0 * 256 + 1 * r.val = 256 * t.val + r.val; rw [h00]; omega
  | ⟨1, _⟩ => show win0_0.index t 1 * 4096 + 1 * w.val = w.val; rw [h01]; omega

theorem blk1_apply (c : Dev nD) (t : Fin cfg0.N) (r : Fin 256) (w : Fin 4096) :
    blk1 m c t (ix2 r w) = img1 m c (ix2 (⟨256 * t.val + r.val, by have := lt16 t; have := r.isLt; omega⟩ : Fin 4096) w) := by
  obtain ⟨-, -, h10, h11⟩ := idx_facts t
  show iblk m c 1 t (ix2 r w) = V m c main_arg1 _
  unfold iblk
  rw [View.read_apply]
  show V m c main_arg1 _ = V m c main_arg1 _
  congr 1
  funext a
  apply Fin.ext
  match a with
  | ⟨0, _⟩ => show win0_1.index t 0 * 256 + 1 * r.val = 256 * t.val + r.val; rw [h10]; omega
  | ⟨1, _⟩ => show win0_1.index t 1 * 4096 + 1 * w.val = w.val; rw [h11]; omega

/-- The loop's result at grid point t, from the zero block: the count over block t's 256 · 4096 pixels. -/
theorem loop_apply (c : Dev nD) (t : Fin cfg0.N) (j : S64x64.Idx) :
    st_k0_t1 (F := Ideal) Variants.none c none (grid0.coords t) (ms0_0 t) (hs0_0 t) (ms0_1 t) (hs0_1 t) (ms0_2 t) (hs0_2 t)
        ((hs0_0 t).unread (blk0 m c t)) ((hs0_1 t).unread (blk1 m c t)) (k0_pay2 (F := Ideal)) k0_t1_loop.trips j
      = count (img0 m c) (img1 m c) (j 0).val (j 1).val (256 * 4096 * t.val) (256 * 4096) := by
  rw [st_apply Variants.none c none (grid0.coords t) (ms0_0 t) (hs0_0 t) (ms0_1 t) (hs0_1 t) (ms0_2 t) (hs0_2 t)
    (blk0 m c t) (blk1 m c t) (img0 m c) (img1 m c) t.val (lt16 t) (blk0_apply m c t) (blk1_apply m c t)
    (k0_pay2 (F := Ideal)) j k0_t1_loop.trips (le_of_eq trips_eq)]
  rw [pay2_apply, zero_add, trips_eq]
  rw [show 4096 * (256 * t.val) = 256 * 4096 * t.val by ring]

/-- THE RUNNING COUNT: after grid point n the output block holds the count over the image's first
    256 · 4096 · (n + 1) pixels. -/
theorem outsAt_eq (c : Dev nD) (j : S64x64.Idx) : ∀ (n : ℕ) (h : n < cfg0.N),
    outsAt0 m c n h j = count (img0 m c) (img1 m c) (j 0).val (j 1).val 0 (256 * 4096 * (n + 1))
  | 0, h => by
    rw [outsAt0_A m c ⟨0, h⟩ rfl]
    rw [out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _
      (blk0 m c ⟨0, h⟩) (blk1 m c ⟨0, h⟩)]
    show (k0_pay1 (F := Ideal)) j + _ = _
    rw [pay1_apply, zero_add, loop_apply m c ⟨0, h⟩ j]
    rfl
  | n + 1, h => by
    have hN : cfg0.N = 16 := N_0
    have hB : ¬(⟨n + 1, h⟩ : Fin cfg0.N).val % 16 = 0 := by dsimp only; omega
    rw [outsAt0_B m c ⟨n + 1, h⟩ hB]
    rw [out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _
      (blk0 m c ⟨n + 1, h⟩) (blk1 m c ⟨n + 1, h⟩)]
    show outsAt0 m c n _ j + _ = _
    rw [outsAt_eq c j n, loop_apply m c ⟨n + 1, h⟩ j]
    rw [show 256 * 4096 * (n + 1 + 1) = 256 * 4096 * (n + 1) + 256 * 4096 by ring, count_add, zero_add]

/-- The joint histogram of the two images as the pallas_call finds them. -/
abbrev result (c : Dev nD) : Buf (Elt Ideal) ((c : Thread nD τ).loc main_v0) := hist (img0 m c) (img1 m c)

/-- The last point's output block is the whole histogram. -/
theorem outsAt_last (c : Dev nD) : outsAt0 m c t0_15.val t0_15.isLt = result m c := by
  funext j
  rw [outsAt_eq m c j]
  rfl

/-- The one write-back, after point 15, writes it: block (0, 0) of the 64 × 64 array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, outsAt_last]
  have hz' : (fun a => win0_2.index t0_15 a * main_v0.ty.shape.size a) = fun _ => 0 := funext fun a => by fin_cases a <;> decide
  exact (Memref.read_access_unit_zero (Elt Ideal) main_v0 hz' (fun a => by rw [congrFun hz' a]; simp) (result m c)).symm

/-- So the result array of the pallas_call ends holding the joint histogram. -/
theorem final_hist (c : Dev nD) : (dats m 0 c).arrAt 2 cfg0.N = result m c :=
  (dats m 0 c).arrAt_eq_of_cover 2 (result m c) (flushed_eq m c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 64 := (i 0).isLt
      have h1 : (i 1 : Nat) < 64 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 64 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 64 from by decide +kernel]; omega⟩

/-! ## After the pallas_call -/

/-- The program's result buffer is none of the pallas_call's arrays. -/
theorem mem_rest : main_v41 ∈ Pipeline.restRefs sig spec0 := by decide

set_option maxHeartbeats 4000000 in
/-- The operations after the pallas_call compute the closing function of the result array. -/
theorem tail_eq (c : Dev nD) :
    Pipeline.afterTail₀ cfgs (dats m) 0 (V0 m) [hostOps1, hostOps1_1, hostOps1_2, hostOps1_3] c main_v41
      = Cert.Tail.tail (F := Ideal) ((dats m 0 c).arrAt 2 cfg0.N) := by
  unfold Pipeline.afterTail₀
  simp only [hostOps1, hostOps1_1, hostOps1_2, hostOps1_3, List.flatten_cons, List.flatten_nil, List.append_nil, List.cons_append, List.nil_append]
  after_results_simp
  have hW : Pipeline.withArrays (cfgs 0).spec c (V0 m c) (fun w => (dats m 0 c).arrAt w (cfgs 0).N) (Proc.tc.devRef main_v0)
      = (dats m 0 c).arrAt 2 cfg0.N := Pipeline.withArrays_arr spec0 launch0.win.arr_inj c _ _ 2
  rw [hW]
  unfold Cert.Tail.tail
  rfl

/-- THE RUN, READ: every weakly fair execution of the idealized kernel program ends with its result at the closing
    function of the joint histogram of its two arguments, the arguments unchanged. -/
theorem run : θ_run defs (onTc (τ := τ) (main (F := Ideal))) ⟨m, fun _ => 0, ρ⟩ fun r => ∀ c : Dev nD,
      r.2.mem ((c.tc : Thread nD τ).loc main_v41)
        = Cert.Tail.tail (F := Ideal) (hist (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v41 mem_rest).trans ((tail_eq m c).trans (congrArg (Cert.Tail.tail (F := Ideal)) (final_hist m c))),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.HistValue

end
-- ==== Proof.lean ====
/-
  The certificate: a Pallas kernel that builds the joint histogram of two instance-id masks of a 4096 × 4096 image by
  one-hot matrix products — for every eight rows, the product over the 4096 columns of the indicator of `pred = a` with
  the indicator of `true = b`, summed over the rows and accumulated over a loop of 32 trips and a grid of 16 row
  blocks — against a reference that scatter-adds a one per pixel at the joint label `64 · pred + true`. Both then
  compute the same intersection-over-union loss from the 64 × 64 histogram.

  Over the extended reals a product of two 0/1 indicators is the indicator of the pair, so the kernel's array at bin
  (a, b) is the number of pixels labelled (a, b), added up stretch by stretch in pixel order; the reference's bin
  `64 a + b` collects the pixels whose joint label is `64 a + b`, which, the labels lying in [0, 64) (the
  precondition), are the pixels labelled (a, b). The histograms agree, and the common closing function is applied to
  both. Nothing in the argument needs more of the extended reals than that sums of zeros and ones may be regrouped.
-/
import proofs.«425675_j55843164782815_2_alg».proof.Defs
import proofs.«425675_j55843164782815_2_alg».proof.Proof.Gen.Kernel
import proofs.«425675_j55843164782815_2_alg».proof.Proof.Gen.Kernel.Frame
import proofs.«425675_j55843164782815_2_alg».proof.Proof.Gen.KernelIdeal
import proofs.«425675_j55843164782815_2_alg».proof.Proof.Gen.KernelIdeal.Frame
import proofs.«425675_j55843164782815_2_alg».proof.Proof.Gen.ReferenceIdeal
import proofs.«425675_j55843164782815_2_alg».proof.Proof.Gen.Pre_any_inputs
import proofs.«425675_j55843164782815_2_alg».proof.Proof.RefRunPatched
import proofs.«425675_j55843164782815_2_alg».proof.Proof.RefHist
import proofs.«425675_j55843164782815_2_alg».proof.Proof.Tail
import proofs.«425675_j55843164782815_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the closing function of the joint histogram of the (agreeing) arguments: the kernel by its
    run read through the pallas_call, the reference because, under the precondition, its scatter-add is that
    histogram. -/
theorem algebraic : Cert.algebraic_KernelIdeal_ReferenceIdeal := by
  intro m ρ m' ρ' hpre hagree
  refine ⟨fun c => Cert.Tail.tail (F := Ideal)
      (Cert.Hist.hist (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.HistValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1⟩ := Cert.RefHist.labels_lt_of_pre _ _ (hpre c)
  rw [Cert.Tail.ref_result, (hagree c).1, (hagree c).2]
  exact congrArg (Cert.Tail.tail (F := Ideal)) (Cert.RefHist.refHist_eq_hist _ _ h0 h1)

theorem claim : Cert.Claim := ⟨Cert.Kernel.Gen.facts, Cert.KernelIdeal.Gen.facts, Cert.ReferenceIdeal.Gen.facts, Cert.Pre_any_inputs.Gen.facts,
  frame_k, frame_ki, frame_ri, trivial, algebraic⟩

end Cert.Proof

end
